-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S8x4096 : Shape := ⟨2, ![8, 4096]⟩
abbrev S4096x8 : Shape := ⟨2, ![4096, 8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  main_v18

def fn {F : FTy → Type} [FloatOps F] (main_arg0 : FVec F S4x4096x4096 .f32) (main_arg1 : FVec F S4096x4096 .f32) (main_arg2 : FVec F S8x4096 .f32) (main_arg3 : FVec F S4096x8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_v13 main_v16
-- ==== Kernel.lean ====
abbrev S4x4096x4096 : Shape := ⟨3, ![4, 4096, 4096]⟩
abbrev S4096x4096 : Shape := ⟨2, ![4096, 4096]⟩
abbrev S8x4096 : Shape := ⟨2, ![8, 4096]⟩
abbrev S4096x8 : Shape := ⟨2, ![4096, 8]⟩
abbrev S16384x4096 : Shape := ⟨2, ![16384, 4096]⟩
abbrev S2048x512 : Shape := ⟨2, ![2048, 512]⟩
abbrev S1024x512 : Shape := ⟨2, ![1024, 512]⟩
abbrev S8x512 : Shape := ⟨2, ![8, 512]⟩
abbrev S1024x8 : Shape := ⟨2, ![1024, 8]⟩
abbrev S2048x1024 : Shape := ⟨2, ![2048, 1024]⟩
abbrev S2048x8 : Shape := ⟨2, ![2048, 8]⟩
abbrev S512x1024 : Shape := ⟨2, ![512, 1024]⟩
abbrev S512x8 : Shape := ⟨2, ![512, 8]⟩
abbrev S8x1024 : Shape := ⟨2, ![8, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S16384x4096, .f32⟩
  | .hbm, ⟨5, _⟩ => ⟨S16384x4096, .f32⟩
  | .hbm, ⟨6, _⟩ => ⟨S4x4096x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S1024x8, .f32⟩
  | .local _ .vmem, ⟨7, _⟩ => ⟨S1024x8, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | .local _ .vmem, ⟨11, _⟩ => ⟨S2048x8, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x4096x4096_S16384x4096 : S4x4096x4096.ShapeCasts S16384x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S8x512_S8x512_0_0 : ∀ a, (![0, 0] : Fin 2 → Nat) a + S8x512.size a ≤ S8x512.size a
  h_S8x512 : 0 < S8x512.numel
  transposes_S1024x512_p1_0_S512x1024 : S1024x512.Transposes [1, 0] S512x1024
  transposes_S8x512_p1_0_S512x8 : S8x512.Transposes [1, 0] S512x8
  inb_S1024x8_S1024x8_0_0 : ∀ a, (![0, 0] : Fin 2 → Nat) a + S1024x8.size a ≤ S1024x8.size a
  h_S1024x8 : 0 < S1024x8.numel
  transposes_S1024x8_p1_0_S8x1024 : S1024x8.Transposes [1, 0] S8x1024
  shapeCasts_S16384x4096_S4x4096x4096 : S16384x4096.ShapeCasts S4x4096x4096
  dot_S2048x512_S512x1024_S2048x1024_1_0_0_1_n_n_wf : DotDims.WF S2048x512 S512x1024 S2048x1024 [1] [0] [0] [1] [] []
  dot_S2048x512_S512x8_S2048x8_1_0_0_1_n_n_wf : DotDims.WF S2048x512 S512x8 S2048x8 [1] [0] [0] [1] [] []
  dot_S2048x8_S8x1024_S2048x1024_1_0_0_1_n_n_wf : DotDims.WF S2048x8 S8x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .f32 = 32 ∨ (Rect.block (s := S16384x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S4096x8.size a
  hwx0_3 : ∀ i : grid0.Coords, EltTy.bits .f32 = 32 ∨ (Rect.block (s := S4096x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x4096.size a
  hwx0_4 : ∀ i : grid0.Coords, EltTy.bits .f32 = 32 ∨ (Rect.block (s := S16384x4096) S2048x1024.size (cc0_transform_4 i) (hinb0_4 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x512_S512x8_S2048x8_1_0_0_1_n_n : DotDims S2048x512 S512x8 S2048x8 where
  lhsContracting := [1]
  rhsContracting := [0]
  lhsNonContracting := [0]
  rhsNonContracting := [1]
  lhsBatch := []
  rhsBatch := []
  wf := dot_S2048x512_S512x8_S2048x8_1_0_0_1_n_n_wf
def dot_S2048x8_S8x1024_S2048x1024_1_0_0_1_n_n : DotDims S2048x8 S8x1024 S2048x1024 where
  lhsContracting := [1]
  rhsContracting := [0]
  lhsNonContracting := [0]
  rhsNonContracting := [1]
  lhsBatch := []
  rhsBatch := []
  wf := dot_S2048x8_S8x1024_S2048x1024_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S8x4096 : Shape := ⟨2, ![8, 4096]⟩
abbrev S4096x8 : Shape := ⟨2, ![4096, 8]⟩
abbrev S4x4096x8 : Shape := ⟨3, ![4, 4096, 8]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S4x4096x4096, .f32⟩
  | .hbm, ⟨5, _⟩ => ⟨S4x4096x8, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S8x4096_S4x4096x8_2_1_01_0_n_n_wf : DotDims.WF S4x4096x4096 S8x4096 S4x4096x8 [2] [1] [0, 1] [0] [] []
  dot_S4x4096x8_S4096x8_S4x4096x4096_2_1_01_0_n_n_wf : DotDims.WF S4x4096x8 S4096x8 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S8x4096_S4x4096x8_2_1_01_0_n_n : DotDims S4x4096x4096 S8x4096 S4x4096x8 where
  lhsContracting := [2]
  rhsContracting := [1]
  lhsNonContracting := [0, 1]
  rhsNonContracting := [0]
  lhsBatch := []
  rhsBatch := []
  wf := dot_S4x4096x4096_S8x4096_S4x4096x8_2_1_01_0_n_n_wf
def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf

class Facts : Prop extends Facts₀ where

variable [Facts]
-- ==== Proof.Cases.lean ====
/-
  What the body of one grid point leaves behind, case by case, as the printed arithmetic of what it found.

  The grid walks the feature runs innermost: a point is the first run of its (token block, output block) pair, a middle
  run, or the last run. With `base` and `low` the two accumulators the point before left,
    * first run  : base' = step_base xb wb 0,      low' = step_low xb ab 0       (the accumulators are zeroed, then updated);
    * middle run : base' = step_base xb wb base,   low' = step_low xb ab low;
    * last run   : the same updates, and the output block is  out bb low' base'  of the updated accumulators.
  Here step_base, step_low and out are the printed payloads `k0_pay4`, `k0_pay5`, `k0_pay6` and 0 the zero splats
  `k0_pay1`, `k0_pay2`. Each buffer is stored whole, so what a case leaves in it is the payload of its last store, and
  a load of a buffer stored earlier in the same body reads that store's payload. Stated for any float instance.
-/
import proofs.«106739_j86011015070181_1_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.SL.Sem

variable {F : FTy → Type} [FloatOps F]

/-- The zero offsets of a whole-buffer access. -/
theorem hz : (![0, 0] : Fin 2 → Nat) = fun _ => 0 := funext fun a => by fin_cases a <;> rfl

variable (c : Dev nD) (i : grid0.Coords)
  (arg3 : Memref sig .tc .vmem S2048x512 .f32) (harg3 : arg3.IsWhole) (arg4 : Memref sig .tc .vmem S1024x512 .f32) (harg4 : arg4.IsWhole)
  (arg5 : Memref sig .tc .vmem S8x512 .f32) (harg5 : arg5.IsWhole) (arg6 : Memref sig .tc .vmem S1024x8 .f32) (harg6 : arg6.IsWhole)
  (arg7 : Memref sig .tc .vmem S2048x1024 .f32) (harg7 : arg7.IsWhole) (arg8 : Memref sig .tc .vmem S2048x1024 .f32) (harg8 : arg8.IsWhole)
  (arg9 : Memref sig .tc .vmem S2048x8 .f32) (harg9 : arg9.IsWhole)

/-! ### First run: zero, then update -/

theorem first_base (hc0 : cond0_0 i) (hc1 : ¬cond0_1 i)
    (x0 : Vec F S2048x512 .f32) (x1 : Vec F S1024x512 .f32) (x2 : Vec F S8x512 .f32) (x3 : Vec F S1024x8 .f32) :
    sout0_A_0 c i arg3 harg3 arg4 harg4 arg5 harg5 arg6 harg6 arg7 harg7 arg8 harg8 arg9 harg9 hc0 hc1 x0 x1 x2 x3
      = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x1024) hz]
  simp only [View.readAt_eq_ld, harg3.read_unread, harg4.read_unread, View.ld_unit_zero (S := S2048x512) hz,
    View.ld_unit_zero (S := S1024x512) hz, View.readCov_unit_zero (S := S2048x1024) _ hz]

theorem first_low (hc0 : cond0_0 i) (hc1 : ¬cond0_1 i)
    (x0 : Vec F S2048x512 .f32) (x1 : Vec F S1024x512 .f32) (x2 : Vec F S8x512 .f32) (x3 : Vec F S1024x8 .f32) :
    sout0_A_1 c i arg3 harg3 arg4 harg4 arg5 harg5 arg6 harg6 arg7 harg7 arg8 harg8 arg9 harg9 hc0 hc1 x0 x1 x2 x3
      = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x8) hz]
  simp only [View.readAt_eq_ld, harg3.read_unread, harg5.read_unread, View.ld_unit_zero (S := S2048x512) hz,
    View.ld_unit_zero (S := S8x512) hz, View.readCov_unit_zero (S := S2048x8) _ hz]

/-! ### Middle run: update -/

theorem middle_base (hc0 : ¬cond0_0 i) (hc1 : ¬cond0_1 i)
    (x0 : Vec F S2048x512 .f32) (x1 : Vec F S1024x512 .f32) (x2 : Vec F S8x512 .f32) (x3 : Vec F S1024x8 .f32)
    (xs0 : Vec F S2048x1024 .f32) (xs1 : Vec F S2048x8 .f32) :
    sout0_B_0 c i arg3 harg3 arg4 harg4 arg5 harg5 arg6 harg6 arg7 harg7 arg8 harg8 arg9 harg9 hc0 hc1 x0 x1 x2 x3 xs0 xs1
      = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg8.read_unread, View.ld_unit_zero (S := S2048x512) hz,
    View.ld_unit_zero (S := S1024x512) hz, View.ld_unit_zero (S := S2048x1024) hz]

theorem middle_low (hc0 : ¬cond0_0 i) (hc1 : ¬cond0_1 i)
    (x0 : Vec F S2048x512 .f32) (x1 : Vec F S1024x512 .f32) (x2 : Vec F S8x512 .f32) (x3 : Vec F S1024x8 .f32)
    (xs0 : Vec F S2048x1024 .f32) (xs1 : Vec F S2048x8 .f32) :
    sout0_B_1 c i arg3 harg3 arg4 harg4 arg5 harg5 arg6 harg6 arg7 harg7 arg8 harg8 arg9 harg9 hc0 hc1 x0 x1 x2 x3 xs0 xs1
      = k0_pay5 x0 x2 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg5.read_unread, harg9.read_unread, View.ld_unit_zero (S := S2048x512) hz,
    View.ld_unit_zero (S := S8x512) hz, View.ld_unit_zero (S := S2048x8) hz]

/-! ### Last run: update, then the output block of the updated accumulators -/

theorem last_base (hc0 : ¬cond0_0 i) (hc1 : cond0_1 i)
    (x0 : Vec F S2048x512 .f32) (x1 : Vec F S1024x512 .f32) (x2 : Vec F S8x512 .f32) (x3 : Vec F S1024x8 .f32)
    (xs0 : Vec F S2048x1024 .f32) (xs1 : Vec F S2048x8 .f32) :
    sout0_C_0 c i arg3 harg3 arg4 harg4 arg5 harg5 arg6 harg6 arg7 harg7 arg8 harg8 arg9 harg9 hc0 hc1 x0 x1 x2 x3 xs0 xs1
      = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg8.read_unread, View.ld_unit_zero (S := S2048x512) hz,
    View.ld_unit_zero (S := S1024x512) hz, View.ld_unit_zero (S := S2048x1024) hz]

theorem last_low (hc0 : ¬cond0_0 i) (hc1 : cond0_1 i)
    (x0 : Vec F S2048x512 .f32) (x1 : Vec F S1024x512 .f32) (x2 : Vec F S8x512 .f32) (x3 : Vec F S1024x8 .f32)
    (xs0 : Vec F S2048x1024 .f32) (xs1 : Vec F S2048x8 .f32) :
    sout0_C_1 c i arg3 harg3 arg4 harg4 arg5 harg5 arg6 harg6 arg7 harg7 arg8 harg8 arg9 harg9 hc0 hc1 x0 x1 x2 x3 xs0 xs1
      = k0_pay5 x0 x2 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg5.read_unread, harg9.read_unread, View.ld_unit_zero (S := S2048x512) hz,
    View.ld_unit_zero (S := S8x512) hz, View.ld_unit_zero (S := S2048x8) hz]

theorem last_out (hc0 : ¬cond0_0 i) (hc1 : cond0_1 i)
    (x0 : Vec F S2048x512 .f32) (x1 : Vec F S1024x512 .f32) (x2 : Vec F S8x512 .f32) (x3 : Vec F S1024x8 .f32)
    (xs0 : Vec F S2048x1024 .f32) (xs1 : Vec F S2048x8 .f32) :
    out0_C_4 c i arg3 harg3 arg4 harg4 arg5 harg5 arg6 harg6 arg7 harg7 arg8 harg8 arg9 harg9 hc0 hc1 x0 x1 x2 x3 xs0 xs1
      = k0_pay6 x3 (k0_pay5 x0 x2 xs1) (k0_pay4 x0 x1 xs0) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread,
    harg9.read_unread, View.ld_unit_zero (S := S2048x512) hz, View.ld_unit_zero (S := S1024x512) hz, View.ld_unit_zero (S := S8x512) hz,
    View.ld_unit_zero (S := S1024x8) hz, View.ld_unit_zero (S := S2048x1024) hz, View.ld_unit_zero (S := S2048x8) hz,
    View.readCov_unit_zero (S := S2048x1024) _ hz, View.readCov_unit_zero (S := S2048x8) _ hz]

end Cert.KernelIdeal.Cases

end
-- ==== Proof.Point.lean ====
/-
  The arithmetic one grid point does, read entry by entry over the extended reals.

  A point holds a block of tokens xb (2048 tokens × the 512 features of one run), a block of the weight wb (1024
  outputs × the same 512 features), the down-projection's slice ab (8 × 512) and, at the last run only, a block of the
  up-projection bb (1024 × 8). Its three stores are
    * base' = base + xb · wbᵀ            entry (p, q):  base (p, q) + Σ_d xb (p, d) · wb (q, d)
    * low'  = low  + xb · abᵀ            entry (p, r):  low (p, r)  + Σ_d xb (p, d) · ab (r, d)
    * out   = base + (low · bbᵀ) · two   entry (p, q):  base (p, q) + (Σ_r low (p, r) · bb (q, r)) · two
  where a change of float format is the identity, a product into a zero accumulator is the plain sum over the
  contracted axis, and a transposed operand is read at the swapped coordinates. The scaling literal's word is kept as
  printed and never evaluated.
-/
import proofs.«106739_j86011015070181_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Point

open Cert.KernelIdeal Cert.KernelIdeal.Gen Idealize.ShloMosaic Idealize.ShloMosaic.ValueIdx

/-- A transposed matrix read at (k, q) is the matrix at (q, k). -/
theorem transposed_apply {α : Type} {a b : ℕ} (x : (⟨2, ![a, b]⟩ : Shape).Idx → α)
    (h : (⟨2, ![a, b]⟩ : Shape).Transposes [1, 0] ⟨2, ![b, a]⟩) (k : Fin b) (q : Fin a) :
    transpose ⟨2, ![b, a]⟩ [1, 0] x h (ix2 k q) = x (ix2 q k) :=
  transpose_apply [1, 0] x h (ix2 k q) (ix2 q k) (fun c => by
    match c with
    | ⟨0, _⟩ => rfl
    | ⟨1, _⟩ => rfl)

/-! ### Tokens by weight: [2048, 512] · [512, 1024]

The left operand's row is the result's row and its column the contracted position; the right operand's row is the
contracted position and its column the result's column. -/

theorem xw_left_row (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem xw_left_col (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
theorem xw_right_row (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
theorem xw_right_col (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- Entry (p, q) of the product into a zero accumulator: the sum over the 512 features of the run. -/
theorem xw_apply (l : FVec Ideal S2048x512 .bf16) (r : FVec Ideal S512x1024 .bf16) (p : Fin 2048) (q : Fin 1024) :
    matmul dot_S2048x512_S512x1024_S2048x1024_1_0_0_1_n_n none l r (constant (F := Ideal) S2048x1024 .f32 0x00000000#32) (ix2 p q)
      = ∑ k : Fin 512, l (ix2 p k) * r (ix2 k q) := by
  simp only [matmul]
  rw [Ideal.matmul_constant_zero_apply, ← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx (ix2 p q) ((ValueIdx.contrEquiv1 dot_S2048x512_S512x1024_S2048x1024_1_0_0_1_n_n 512 rfl rfl).symm k) = ix2 p k := funext fun a => Fin.ext (by
    match a with
    | ⟨0, _⟩ => exact xw_left_row _ _
    | ⟨1, _⟩ => exact (xw_left_col _ _).trans hk)
  have er : dot_S2048x512_S512x1024_S2048x1024_1_0_0_1_n_n.rhsIdx (ix2 p q) ((ValueIdx.contrEquiv1 dot_S2048x512_S512x1024_S2048x1024_1_0_0_1_n_n 512 rfl rfl).symm k) = ix2 k q := funext fun a => Fin.ext (by
    match a with
    | ⟨0, _⟩ => exact (xw_right_row _ _).trans hk
    | ⟨1, _⟩ => exact xw_right_col _ _)
  rw [el, er]

/-! ### Tokens by down-projection: [2048, 512] · [512, 8] -/

theorem xa_left_row (i : S2048x8.Idx) (q : dot_S2048x512_S512x8_S2048x8_1_0_0_1_n_n.contr.Idx) :
    (dot_S2048x512_S512x8_S2048x8_1_0_0_1_n_n.lhsIdx i q 0).val = (i 0).val := by
  unfold DotDims.lhsIdx
  rw [dif_neg (show ¬(0 : Fin S2048x512.rank) ∈ dot_S2048x512_S512x8_S2048x8_1_0_0_1_n_n.lhsBatch by decide), dif_pos (show (0 : Fin S2048x512.rank) ∈ dot_S2048x512_S512x8_S2048x8_1_0_0_1_n_n.lhsNonContracting by decide)]
  rfl
theorem xa_left_col (i : S2048x8.Idx) (q : dot_S2048x512_S512x8_S2048x8_1_0_0_1_n_n.contr.Idx) :
    (dot_S2048x512_S512x8_S2048x8_1_0_0_1_n_n.lhsIdx i q 1).val = (q ⟨0, by decide⟩).val :=
  dot_S2048x512_S512x8_S2048x8_1_0_0_1_n_n.lhsIdx_val_of_single rfl i q
theorem xa_right_row (i : S2048x8.Idx) (q : dot_S2048x512_S512x8_S2048x8_1_0_0_1_n_n.contr.Idx) :
    (dot_S2048x512_S512x8_S2048x8_1_0_0_1_n_n.rhsIdx i q 0).val = (q ⟨0, by decide⟩).val :=
  dot_S2048x512_S512x8_S2048x8_1_0_0_1_n_n.rhsIdx_val_of_single rfl i q
theorem xa_right_col (i : S2048x8.Idx) (q : dot_S2048x512_S512x8_S2048x8_1_0_0_1_n_n.contr.Idx) :
    (dot_S2048x512_S512x8_S2048x8_1_0_0_1_n_n.rhsIdx i q 1).val = (i 1).val := by
  unfold DotDims.rhsIdx
  rw [dif_neg (show ¬(1 : Fin S512x8.rank) ∈ dot_S2048x512_S512x8_S2048x8_1_0_0_1_n_n.rhsBatch by decide), dif_pos (show (1 : Fin S512x8.rank) ∈ dot_S2048x512_S512x8_S2048x8_1_0_0_1_n_n.rhsNonContracting by decide)]
  rfl

/-- Entry (p, r) of the product into a zero accumulator: the sum over the 512 features of the run. -/
theorem xa_apply (l : FVec Ideal S2048x512 .bf16) (r : FVec Ideal S512x8 .bf16) (p : Fin 2048) (q : Fin 8) :
    matmul dot_S2048x512_S512x8_S2048x8_1_0_0_1_n_n none l r (constant (F := Ideal) S2048x8 .f32 0x00000000#32) (ix2 p q)
      = ∑ k : Fin 512, l (ix2 p k) * r (ix2 k q) := by
  simp only [matmul]
  rw [Ideal.matmul_constant_zero_apply, ← Equiv.sum_comp (ValueIdx.contrEquiv1 dot_S2048x512_S512x8_S2048x8_1_0_0_1_n_n 512 rfl rfl).symm]
  refine Finset.sum_congr rfl fun k _ => ?_
  have hk := ValueIdx.contrEquiv1_symm_val dot_S2048x512_S512x8_S2048x8_1_0_0_1_n_n 512 rfl rfl k
  have el : dot_S2048x512_S512x8_S2048x8_1_0_0_1_n_n.lhsIdx (ix2 p q) ((ValueIdx.contrEquiv1 dot_S2048x512_S512x8_S2048x8_1_0_0_1_n_n 512 rfl rfl).symm k) = ix2 p k := funext fun a => Fin.ext (by
    match a with
    | ⟨0, _⟩ => exact xa_left_row _ _
    | ⟨1, _⟩ => exact (xa_left_col _ _).trans hk)
  have er : dot_S2048x512_S512x8_S2048x8_1_0_0_1_n_n.rhsIdx (ix2 p q) ((ValueIdx.contrEquiv1 dot_S2048x512_S512x8_S2048x8_1_0_0_1_n_n 512 rfl rfl).symm k) = ix2 k q := funext fun a => Fin.ext (by
    match a with
    | ⟨0, _⟩ => exact (xa_right_row _ _).trans hk
    | ⟨1, _⟩ => exact xa_right_col _ _)
  rw [el, er]

/-! ### Low-rank activations by up-projection: [2048, 8] · [8, 1024] -/

theorem lb_left_row (i : S2048x1024.Idx) (q : dot_S2048x8_S8x1024_S2048x1024_1_0_0_1_n_n.contr.Idx) :
    (dot_S2048x8_S8x1024_S2048x1024_1_0_0_1_n_n.lhsIdx i q 0).val = (i 0).val := by
  unfold DotDims.lhsIdx
  rw [dif_neg (show ¬(0 : Fin S2048x8.rank) ∈ dot_S2048x8_S8x1024_S2048x1024_1_0_0_1_n_n.lhsBatch by decide), dif_pos (show (0 : Fin S2048x8.rank) ∈ dot_S2048x8_S8x1024_S2048x1024_1_0_0_1_n_n.lhsNonContracting by decide)]
  rfl
theorem lb_left_col (i : S2048x1024.Idx) (q : dot_S2048x8_S8x1024_S2048x1024_1_0_0_1_n_n.contr.Idx) :
    (dot_S2048x8_S8x1024_S2048x1024_1_0_0_1_n_n.lhsIdx i q 1).val = (q ⟨0, by decide⟩).val :=
  dot_S2048x8_S8x1024_S2048x1024_1_0_0_1_n_n.lhsIdx_val_of_single rfl i q
theorem lb_right_row (i : S2048x1024.Idx) (q : dot_S2048x8_S8x1024_S2048x1024_1_0_0_1_n_n.contr.Idx) :
    (dot_S2048x8_S8x1024_S2048x1024_1_0_0_1_n_n.rhsIdx i q 0).val = (q ⟨0, by decide⟩).val :=
  dot_S2048x8_S8x1024_S2048x1024_1_0_0_1_n_n.rhsIdx_val_of_single rfl i q
theorem lb_right_col (i : S2048x1024.Idx) (q : dot_S2048x8_S8x1024_S2048x1024_1_0_0_1_n_n.contr.Idx) :
    (dot_S2048x8_S8x1024_S2048x1024_1_0_0_1_n_n.rhsIdx i q 1).val = (i 1).val := by
  unfold DotDims.rhsIdx
  rw [dif_neg (show ¬(1 : Fin S8x1024.rank) ∈ dot_S2048x8_S8x1024_S2048x1024_1_0_0_1_n_n.rhsBatch by decide), dif_pos (show (1 : Fin S8x1024.rank) ∈ dot_S2048x8_S8x1024_S2048x1024_1_0_0_1_n_n.rhsNonContracting by decide)]
  rfl

/-- Entry (p, q) of the product into a zero accumulator: the sum over the 8 ranks. -/
theorem lb_apply (l : FVec Ideal S2048x8 .bf16) (r : FVec Ideal S8x1024 .bf16) (p : Fin 2048) (q : Fin 1024) :
    matmul dot_S2048x8_S8x1024_S2048x1024_1_0_0_1_n_n none l r (constant (F := Ideal) S2048x1024 .f32 0x00000000#32) (ix2 p q)
      = ∑ k : Fin 8, l (ix2 p k) * r (ix2 k q) := by
  simp only [matmul]
  rw [Ideal.matmul_constant_zero_apply, ← Equiv.sum_comp (ValueIdx.contrEquiv1 dot_S2048x8_S8x1024_S2048x1024_1_0_0_1_n_n 8 rfl rfl).symm]
  refine Finset.sum_congr rfl fun k _ => ?_
  have hk := ValueIdx.contrEquiv1_symm_val dot_S2048x8_S8x1024_S2048x1024_1_0_0_1_n_n 8 rfl rfl k
  have el : dot_S2048x8_S8x1024_S2048x1024_1_0_0_1_n_n.lhsIdx (ix2 p q) ((ValueIdx.contrEquiv1 dot_S2048x8_S8x1024_S2048x1024_1_0_0_1_n_n 8 rfl rfl).symm k) = ix2 p k := funext fun a => Fin.ext (by
    match a with
    | ⟨0, _⟩ => exact lb_left_row _ _
    | ⟨1, _⟩ => exact (lb_left_col _ _).trans hk)
  have er : dot_S2048x8_S8x1024_S2048x1024_1_0_0_1_n_n.rhsIdx (ix2 p q) ((ValueIdx.contrEquiv1 dot_S2048x8_S8x1024_S2048x1024_1_0_0_1_n_n 8 rfl rfl).symm k) = ix2 k q := funext fun a => Fin.ext (by
    match a with
    | ⟨0, _⟩ => exact (lb_right_row _ _).trans hk
    | ⟨1, _⟩ => exact lb_right_col _ _)
  rw [el, er]

/-! ### The three stores -/

/-- The base accumulator's update at (p, q). -/
theorem base_step (xb : Vec Ideal S2048x512 .f32) (wb : Vec Ideal S1024x512 .f32) (base : Vec Ideal S2048x1024 .f32)
    (p : Fin 2048) (q : Fin 1024) :
    k0_pay4 (F := Ideal) xb wb base (ix2 p q) = base (ix2 p q) + ∑ d : Fin 512, xb (ix2 p d) * wb (ix2 q d) := by
  unfold k0_pay4 k0_pay3
  simp only [shapeCast_self]
  refine (addf_apply _ _ _).trans (congrArg (base (ix2 p q) + ·) ?_)
  refine (xw_apply _ _ p q).trans (Finset.sum_congr rfl fun d _ => ?_)
  rw [transposed_apply]
  rfl

/-- The low-rank accumulator's update at (p, r). -/
theorem low_step (xb : Vec Ideal S2048x512 .f32) (ab : Vec Ideal S8x512 .f32) (low : Vec Ideal S2048x8 .f32)
    (p : Fin 2048) (r : Fin 8) :
    k0_pay5 (F := Ideal) xb ab low (ix2 p r) = low (ix2 p r) + ∑ d : Fin 512, xb (ix2 p d) * ab (ix2 r d) := by
  unfold k0_pay5 k0_pay3
  simp only [shapeCast_self]
  refine (addf_apply _ _ _).trans (congrArg (low (ix2 p r) + ·) ?_)
  refine (xa_apply _ _ p r).trans (Finset.sum_congr rfl fun d _ => ?_)
  rw [transposed_apply]
  rfl

/-- The output block at (p, q). -/
theorem out_step (bb : Vec Ideal S1024x8 .f32) (low : Vec Ideal S2048x8 .f32) (base : Vec Ideal S2048x1024 .f32)
    (p : Fin 2048) (q : Fin 1024) :
    k0_pay6 (F := Ideal) bb low base (ix2 p q)
      = base (ix2 p q) + (∑ r : Fin 8, low (ix2 p r) * bb (ix2 q r)) * Ideal.ofBits .f32 0x40000000#32 := by
  unfold k0_pay6
  refine (addf_apply _ _ _).trans (congrArg (base (ix2 p q) + ·) ?_)
  refine (mulf_apply _ _ _).trans ?_
  refine congrArg (· * Ideal.ofBits .f32 0x40000000#32) ?_
  refine (lb_apply _ _ p q).trans (Finset.sum_congr rfl fun r _ => ?_)
  rw [transposed_apply]
  rfl

end Cert.KernelIdeal.Point

end
-- ==== Proof.Layer.lean ====
/-
  The mathematics of a linear layer with a rank-8 low-rank update, stated with no program in sight.

  For a token matrix X (16384 tokens × 4096 features), a weight W (4096 × 4096), a down-projection A (8 × 4096)
  and an up-projection B (4096 × 8) the layer's value at token M and output feature o is

      matOut X W A B two M o  =  Σ_D X (M, D) · W (o, D)  +  (Σ_r (Σ_D X (M, D) · A (r, D)) · B (o, r)) · two

  over the extended reals (two is whatever value the scaling literal denotes; it is never evaluated).

  A blocked evaluation cuts the 4096 features into 8 runs of 512 and folds the runs' partial dot products, first to
  last, onto a zero accumulator. Addition on the extended reals is commutative and associative with neutral element 0
  (no cancellation and no distributivity is used), so the fold is the whole sum: that is all this file proves.
    * sum_runs : a sum over the 4096 features is the sum over the 8 runs of the sums inside each run;
    * upTo f K : the partial sum of the runs 0 … K, with its three laws (upTo_zero, upTo_succ, upTo_last);
    * the index constructors: a token row inside a block of 2048 tokens, a feature inside a run of 512, an output
      feature inside a block of 1024, a token from its (batch, position) pair;
    * flat_tokens / unflat_tokens : the (batch, position, feature) array and the (token, feature) matrix are one
      row-major sequence, so either reshape reads the other at the token 4096·b + s.
-/
import Idealize.ShloMosaic.PureOps.Ideal.Laws
import Idealize.ShloMosaic.Lib.ValueIdx
import Idealize.ShloMosaic.Lib.Pipeline.Value

noncomputable section

namespace Cert.LoraLinear

open Idealize.ShloMosaic Idealize.ShloMosaic.ValueIdx

/-! ## Indices -/

/-- Token row `p` of token block `i` (blocks of 2048 rows). -/
abbrev tokRow (i : Fin 8) (p : Fin 2048) : Fin 16384 := ⟨2048 * i.val + p.val, by omega⟩
/-- Feature `d` of run `k` (runs of 512 features). -/
abbrev feat (k : Fin 8) (d : Fin 512) : Fin 4096 := ⟨512 * k.val + d.val, by omega⟩
/-- Output feature `q` of output block `j` (blocks of 1024). -/
abbrev outFeat (j : Fin 4) (q : Fin 1024) : Fin 4096 := ⟨1024 * j.val + q.val, by omega⟩
/-- The token at position `s` of batch `b`. -/
abbrev tok (b : Fin 4) (s : Fin 4096) : Fin 16384 := ⟨4096 * b.val + s.val, by omega⟩

/-! ## The two layouts of the tokens -/

/-- The (batch, position, feature) array flattened to a (token, feature) matrix, read at token `4096·b + s`. -/
theorem flat_tokens {α : Type} (x : (⟨3, ![4, 4096, 4096]⟩ : Shape).Idx → α)
    (h : (⟨3, ![4, 4096, 4096]⟩ : Shape).ShapeCasts ⟨2, ![16384, 4096]⟩) (b : Fin 4) (s : Fin 4096) (D : Fin 4096) :
    shapeCast ⟨2, ![16384, 4096]⟩ x h (ix2 (tok b s) D) = x (ix3 b s D) := by
  refine shapeCast_apply x h (ix2 (tok b s) D) (ix3 b s D) ?_
  rw [Shape.rowMajor_val_three, Shape.rowMajor_val_two]
  show (b.val * 4096 + s.val) * 4096 + D.val = (4096 * b.val + s.val) * 4096 + D.val
  omega

/-- The (token, feature) matrix laid back out as (batch, position, feature), read at (b, s, o). -/
theorem unflat_tokens {α : Type} (y : (⟨2, ![16384, 4096]⟩ : Shape).Idx → α)
    (h : (⟨2, ![16384, 4096]⟩ : Shape).ShapeCasts ⟨3, ![4, 4096, 4096]⟩) (b : Fin 4) (s : Fin 4096) (o : Fin 4096) :
    shapeCast ⟨3, ![4, 4096, 4096]⟩ y h (ix3 b s o) = y (ix2 (tok b s) o) := by
  refine shapeCast_apply y h (ix3 b s o) (ix2 (tok b s) o) ?_
  rw [Shape.rowMajor_val_three, Shape.rowMajor_val_two]
  show (4096 * b.val + s.val) * 4096 + o.val = (b.val * 4096 + s.val) * 4096 + o.val
  omega

/-! ## A sum over the features, run by run -/

section Sums
variable {M : Type*} [AddCommMonoid M]

/-- A sum over the 4096 features is the sum over the 8 runs of the sums over each run's 512 features. -/
theorem sum_runs (f : Fin 4096 → M) : ∑ D : Fin 4096, f D = ∑ k : Fin 8, ∑ d : Fin 512, f (feat k d) := by
  rw [← Equiv.sum_comp (finProdFinEquiv : Fin 8 × Fin 512 ≃ Fin 4096) f, Fintype.sum_prod_type]
  refine Finset.sum_congr rfl fun k _ => Finset.sum_congr rfl fun d _ => congrArg f (Fin.ext ?_)
  show d.val + 512 * k.val = 512 * k.val + d.val
  omega

/-- The partial sum of the runs `0 … K`. -/
def upTo (f : Fin 8 → M) (K : ℕ) : M := ∑ k : Fin 8, if k.val ≤ K then f k else 0

/-- Only run 0 is at most 0. -/
theorem upTo_zero (f : Fin 8 → M) : upTo f 0 = f 0 := by
  unfold upTo
  have e : ∀ k : Fin 8, (if k.val ≤ 0 then f k else 0) = if k = 0 then f k else 0 := fun k => by
    by_cases h : k = 0
    · subst h; rfl
    · rw [if_neg h, if_neg]; intro h'; exact h (Fin.ext (by simpa using h'))
  simp only [e, Finset.sum_ite_eq', Finset.mem_univ, if_true]

/-- One more run. -/
theorem upTo_succ (f : Fin 8 → M) (K : ℕ) (h : K + 1 < 8) : upTo f (K + 1) = upTo f K + f ⟨K + 1, h⟩ := by
  unfold upTo
  have e : ∀ k : Fin 8, (if k.val ≤ K + 1 then f k else 0)
      = (if k.val ≤ K then f k else 0) + (if k = ⟨K + 1, h⟩ then f k else 0) := fun k => by
    by_cases h1 : k.val ≤ K
    · have h2 : k ≠ ⟨K + 1, h⟩ := fun e => by rw [e] at h1; simp at h1
      rw [if_pos (by omega), if_pos h1, if_neg h2, add_zero]
    · by_cases h2 : k = ⟨K + 1, h⟩
      · subst h2; rw [if_pos (le_refl _), if_neg (by simp), if_pos rfl, zero_add]
      · have h3 : ¬k.val ≤ K + 1 := fun h3 => h2 (Fin.ext (by simp only; omega))
        rw [if_neg h3, if_neg h1, if_neg h2, add_zero]
  simp only [e, Finset.sum_add_distrib, Finset.sum_ite_eq', Finset.mem_univ, if_true]

/-- All eight runs. -/
theorem upTo_last (f : Fin 8 → M) : upTo f 7 = ∑ k : Fin 8, f k := by
  unfold upTo
  exact Finset.sum_congr rfl fun k _ => if_pos (by have := k.isLt; omega)

end Sums

/-! ## The layer, on arrays -/

/-- The layer on the flat token matrix: entry (M, o) of the (token, output feature) result, from the token matrix
    `X`, the weight `W` (output × feature), the down-projection `A` (rank × feature) and the up-projection `B`
    (output × rank). -/
def matOut (X : (⟨2, ![16384, 4096]⟩ : Shape).Idx → EReal) (W : (⟨2, ![4096, 4096]⟩ : Shape).Idx → EReal)
    (A : (⟨2, ![8, 4096]⟩ : Shape).Idx → EReal) (B : (⟨2, ![4096, 8]⟩ : Shape).Idx → EReal) (two : EReal)
    (M : Fin 16384) (o : Fin 4096) : EReal :=
  (∑ D : Fin 4096, X (ix2 M D) * W (ix2 o D)) + (∑ r : Fin 8, (∑ D : Fin 4096, X (ix2 M D) * A (ix2 r D)) * B (ix2 o r)) * two

/-- The same layer on the (batch, position, feature) array: entry (b, s, o). -/
def layerAt (x : (⟨3, ![4, 4096, 4096]⟩ : Shape).Idx → EReal) (W : (⟨2, ![4096, 4096]⟩ : Shape).Idx → EReal)
    (A : (⟨2, ![8, 4096]⟩ : Shape).Idx → EReal) (B : (⟨2, ![4096, 8]⟩ : Shape).Idx → EReal) (two : EReal)
    (b : Fin 4) (s : Fin 4096) (o : Fin 4096) : EReal :=
  (∑ D : Fin 4096, x (ix3 b s D) * W (ix2 o D)) + (∑ r : Fin 8, (∑ D : Fin 4096, x (ix3 b s D) * A (ix2 r D)) * B (ix2 o r)) * two

/-- Flattening the tokens first changes nothing: the flat layer at token `4096·b + s` is the layer at (b, s). -/
theorem matOut_flat (x : (⟨3, ![4, 4096, 4096]⟩ : Shape).Idx → EReal)
    (h : (⟨3, ![4, 4096, 4096]⟩ : Shape).ShapeCasts ⟨2, ![16384, 4096]⟩) (W : (⟨2, ![4096, 4096]⟩ : Shape).Idx → EReal)
    (A : (⟨2, ![8, 4096]⟩ : Shape).Idx → EReal) (B : (⟨2, ![4096, 8]⟩ : Shape).Idx → EReal) (two : EReal)
    (b : Fin 4) (s : Fin 4096) (o : Fin 4096) :
    matOut (shapeCast ⟨2, ![16384, 4096]⟩ x h) W A B two (tok b s) o = layerAt x W A B two b s o := by
  unfold matOut layerAt
  simp only [flat_tokens]

end Cert.LoraLinear

end
-- ==== Proof.Blocks.lean ====
/-
  The blocks a grid point is handed, as reads of the arrays the region finds.

  The grid has 8 × 4 × 8 points, the feature runs innermost: point n is token block n / 32, output block (n / 8) mod 4
  and run n mod 8 (the printed index maps, decided once over the 256 points). At that point
    * the token window holds rows 2048·(n/32) + p and features 512·(n mod 8) + d of the token matrix;
    * the weight window holds output features 1024·((n/8) mod 4) + q and the same features of the weight;
    * the down-projection window holds all 8 ranks and the same features;
    * the up-projection window holds output features 1024·((n/8) mod 4) + q and all 8 ranks.
  The token matrix the region finds is the (batch, position, feature) argument reshaped by the one host operation
  before the region; the other three arrays are the arguments themselves.
-/
import proofs.«106739_j86011015070181_1_alg».proof.Proof.Gen.KernelIdeal.Frame
import proofs.«106739_j86011015070181_1_alg».proof.Proof.Layer
import Idealize.ShloMosaic.Lib.Pipeline.Value
import Idealize.ShloMosaic.Lib.StableHlo.Run
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.LoraLinear

variable {F : FTy → Type} [FloatOps F]
variable (m : (ℓ : Loc nD τ sig) → Buf (Elt F) ℓ)

/-! ### The arrays and the blocks, at their literal types -/

/-- The token matrix as the region finds it. -/
abbrev tokens (c : Dev nD) : Vec F S16384x4096 .f32 := V m c main_v0
/-- The weight, -/
abbrev weight (c : Dev nD) : Vec F S4096x4096 .f32 := V m c main_arg1
/-- the down-projection -/
abbrev down (c : Dev nD) : Vec F S8x4096 .f32 := V m c main_arg2
/-- and the up-projection. -/
abbrev up (c : Dev nD) : Vec F S4096x8 .f32 := V m c main_arg3

/-- Point `t`'s block of tokens, -/
abbrev xblk (c : Dev nD) (t : Fin cfg0.N) : Vec F S2048x512 .f32 := iblk m c 0 t
/-- of the weight, -/
abbrev wblk (c : Dev nD) (t : Fin cfg0.N) : Vec F S1024x512 .f32 := iblk m c 1 t
/-- of the down-projection -/
abbrev ablk (c : Dev nD) (t : Fin cfg0.N) : Vec F S8x512 .f32 := iblk m c 2 t
/-- and of the up-projection. -/
abbrev bblk (c : Dev nD) (t : Fin cfg0.N) : Vec F S1024x8 .f32 := iblk m c 3 t

/-! ### Where each window's block sits -/

/-- The printed index maps at point `t`, decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val % 8
    ∧ win0_3.index t (0 : Fin 2) = t.val / 8 % 4 ∧ win0_3.index t (1 : Fin 2) = 0
    ∧ win0_4.index t (0 : Fin 2) = t.val / 32 ∧ win0_4.index t (1 : Fin 2) = t.val / 8 % 4 :=
  (by decide +kernel : ∀ t : Fin grid0.N, _)

/-- The token block: row `p`, feature `d` of the block is row `p` of token block `i`, feature `d` of run `k`. -/
theorem xblk_apply (c : Dev nD) (t : Fin cfg0.N) (i k : Fin 8) (hi : i.val = t.val / 32) (hk : k.val = t.val % 8)
    (p : Fin 2048) (d : Fin 512) :
    xblk m c t (ix2 p d) = tokens m c (ix2 (tokRow i p) (feat k d)) := by
  obtain ⟨e0, e1, -⟩ := idx_facts t
  have h : ((cfg0.win 0).blk t).view.emb (ix2 p d) = ix2 (tokRow i p) (feat k d) := by
    funext a; apply Fin.ext
    match a with
    | ⟨0, _⟩ => show win0_0.index t (0 : Fin 2) * 2048 + 1 * p.val = 2048 * i.val + p.val; omega
    | ⟨1, _⟩ => show win0_0.index t (1 : Fin 2) * 512 + 1 * d.val = 512 * k.val + d.val; omega
  show V m c main_v0 (((cfg0.win 0).blk t).view.emb (ix2 p d)) = V m c main_v0 (ix2 (tokRow i p) (feat k d))
  rw [h]

/-- The weight block: output `q` of output block `j`, feature `d` of run `k`. -/
theorem wblk_apply (c : Dev nD) (t : Fin cfg0.N) (j : Fin 4) (k : Fin 8) (hj : j.val = t.val / 8 % 4) (hk : k.val = t.val % 8)
    (q : Fin 1024) (d : Fin 512) :
    wblk m c t (ix2 q d) = weight m c (ix2 (outFeat j q) (feat k d)) := by
  obtain ⟨-, -, e0, e1, -⟩ := idx_facts t
  have h : ((cfg0.win 1).blk t).view.emb (ix2 q d) = ix2 (outFeat j q) (feat k d) := by
    funext a; apply Fin.ext
    match a with
    | ⟨0, _⟩ => show win0_1.index t (0 : Fin 2) * 1024 + 1 * q.val = 1024 * j.val + q.val; omega
    | ⟨1, _⟩ => show win0_1.index t (1 : Fin 2) * 512 + 1 * d.val = 512 * k.val + d.val; omega
  show V m c main_arg1 (((cfg0.win 1).blk t).view.emb (ix2 q d)) = V m c main_arg1 (ix2 (outFeat j q) (feat k d))
  rw [h]

/-- The down-projection block: rank `r`, feature `d` of run `k`. -/
theorem ablk_apply (c : Dev nD) (t : Fin cfg0.N) (k : Fin 8) (hk : k.val = t.val % 8) (r : Fin 8) (d : Fin 512) :
    ablk m c t (ix2 r d) = down m c (ix2 r (feat k d)) := by
  obtain ⟨-, -, -, -, e0, e1, -⟩ := idx_facts t
  have h : ((cfg0.win 2).blk t).view.emb (ix2 r d) = ix2 r (feat k d) := by
    funext a; apply Fin.ext
    match a with
    | ⟨0, _⟩ => show win0_2.index t (0 : Fin 2) * 8 + 1 * r.val = r.val; omega
    | ⟨1, _⟩ => show win0_2.index t (1 : Fin 2) * 512 + 1 * d.val = 512 * k.val + d.val; omega
  show V m c main_arg2 (((cfg0.win 2).blk t).view.emb (ix2 r d)) = V m c main_arg2 (ix2 r (feat k d))
  rw [h]

/-- The up-projection block: output `q` of output block `j`, rank `r`. -/
theorem bblk_apply (c : Dev nD) (t : Fin cfg0.N) (j : Fin 4) (hj : j.val = t.val / 8 % 4) (q : Fin 1024) (r : Fin 8) :
    bblk m c t (ix2 q r) = up m c (ix2 (outFeat j q) r) := by
  obtain ⟨-, -, -, -, -, -, e0, e1, -⟩ := idx_facts t
  have h : ((cfg0.win 3).blk t).view.emb (ix2 q r) = ix2 (outFeat j q) r := by
    funext a; apply Fin.ext
    match a with
    | ⟨0, _⟩ => show win0_3.index t (0 : Fin 2) * 1024 + 1 * q.val = 1024 * j.val + q.val; omega
    | ⟨1, _⟩ => show win0_3.index t (1 : Fin 2) * 8 + 1 * r.val = r.val; omega
  show V m c main_arg3 (((cfg0.win 3).blk t).view.emb (ix2 q r)) = V m c main_arg3 (ix2 (outFeat j q) r)
  rw [h]

/-! ### The arrays the region finds -/

/-- The token matrix is the (batch, position, feature) argument, reshaped by the host operation before the region. -/
theorem tokens_eq (c : Dev nD) :
    tokens m c = shapeCast S16384x4096 (m ((c : Thread nD τ).loc main_arg0)) shapeCasts_S4x4096x4096_S16384x4096 := by
  show StableHlo.after hostOps0 (fun b => m (c, b)) (Proc.devRef .tc main_v0) = _
  after_results
  rfl

/-- The other three arrays are the arguments as launched. -/
theorem weight_eq (c : Dev nD) : weight m c = m ((c : Thread nD τ).loc main_arg1) := V_main_arg1 m c
theorem down_eq (c : Dev nD) : down m c = m ((c : Thread nD τ).loc main_arg2) := V_main_arg2 m c
theorem up_eq (c : Dev nD) : up m c = m ((c : Thread nD τ).loc main_arg3) := V_main_arg3 m c

end Cert.KernelIdeal.Blocks

end
-- ==== Proof.Running.lean ====
/-
  What the two accumulators hold after each grid point.

  Point n works on token block n / 32, output block (n / 8) mod 4 and feature run n mod 8. Write, for a token row p of
  the block, an output q of the block (or a rank r) and a run k,
      runW k = Σ_d X (row p, feature d of run k) · W (output q, feature d of run k)
      runA k = Σ_d X (row p, feature d of run k) · A (rank r, feature d of run k).
  Then after point n the base accumulator holds, at (p, q), the sum of runW over the runs 0 … n mod 8, and the
  low-rank accumulator, at (p, r), the sum of runA over the same runs: the first run of a pair zeroes the
  accumulators and adds run 0 (0 + a = a), every later run adds its own partial product to what the point before
  left, and the point before works on the same pair of blocks. By induction on the point.
-/
import proofs.«106739_j86011015070181_1_alg».proof.Proof.Cases
import proofs.«106739_j86011015070181_1_alg».proof.Proof.Point
import proofs.«106739_j86011015070181_1_alg».proof.Proof.Blocks

set_option maxRecDepth 16384

noncomputable section

namespace Cert.KernelIdeal.Running

open Cert.KernelIdeal Cert.KernelIdeal.Gen Idealize.ShloMosaic Idealize.ShloMosaic.TcCoe Idealize.SL.Sem
open Idealize.ShloMosaic.ValueIdx Cert.LoraLinear Cert.KernelIdeal.Blocks Cert.KernelIdeal.Cases Cert.KernelIdeal.Point

variable (m : (ℓ : Loc nD τ sig) → Buf (Elt Ideal) ℓ)

/-- The token block point `n` works on, -/
abbrev tokBlock (n : ℕ) : Fin 8 := ⟨n / 32 % 8, Nat.mod_lt _ (by decide)⟩
/-- and its output block. -/
abbrev outBlock (n : ℕ) : Fin 4 := ⟨n / 8 % 4, Nat.mod_lt _ (by decide)⟩

/-- Run `k`'s share of the base product at row `p` of token block `i` and output `q` of output block `j`. -/
def runW (c : Dev nD) (i : Fin 8) (j : Fin 4) (p : Fin 2048) (q : Fin 1024) (k : Fin 8) : EReal :=
  ∑ d : Fin 512, tokens m c (ix2 (tokRow i p) (feat k d)) * weight m c (ix2 (outFeat j q) (feat k d))
/-- Run `k`'s share of the down-projection at row `p` of token block `i` and rank `r`. -/
def runA (c : Dev nD) (i : Fin 8) (p : Fin 2048) (r : Fin 8) (k : Fin 8) : EReal :=
  ∑ d : Fin 512, tokens m c (ix2 (tokRow i p) (feat k d)) * down m c (ix2 r (feat k d))

/-- The zero splats are zero. -/
theorem zero_base (y : S2048x1024.Idx) : k0_pay1 (F := Ideal) y = 0 := by
  unfold k0_pay1
  rw [shapeCast_self]
  exact Ideal.ofBits_zero_f32
theorem zero_low (y : S2048x8.Idx) : k0_pay2 (F := Ideal) y = 0 := by
  unfold k0_pay2
  rw [shapeCast_self]
  exact Ideal.ofBits_zero_f32

/-- The point's own partial products are the run's shares. -/
theorem own_W (c : Dev nD) (n : ℕ) (h : n < cfg0.N) (k : Fin 8) (hk : k.val = n % 8) (p : Fin 2048) (q : Fin 1024) :
    ∑ d : Fin 512, xblk m c ⟨n, h⟩ (ix2 p d) * wblk m c ⟨n, h⟩ (ix2 q d) = runW m c (tokBlock n) (outBlock n) p q k := by
  have hN : n < 256 := lt_of_lt_of_eq h (show cfg0.N = 256 from N_0)
  unfold runW
  refine Finset.sum_congr rfl fun d _ => ?_
  rw [xblk_apply m c ⟨n, h⟩ (tokBlock n) k (by show n / 32 % 8 = n / 32; omega) hk p d,
    wblk_apply m c ⟨n, h⟩ (outBlock n) k rfl hk q d]
theorem own_A (c : Dev nD) (n : ℕ) (h : n < cfg0.N) (k : Fin 8) (hk : k.val = n % 8) (p : Fin 2048) (r : Fin 8) :
    ∑ d : Fin 512, xblk m c ⟨n, h⟩ (ix2 p d) * ablk m c ⟨n, h⟩ (ix2 r d) = runA m c (tokBlock n) p r k := by
  have hN : n < 256 := lt_of_lt_of_eq h (show cfg0.N = 256 from N_0)
  unfold runA
  refine Finset.sum_congr rfl fun d _ => ?_
  rw [xblk_apply m c ⟨n, h⟩ (tokBlock n) k (by show n / 32 % 8 = n / 32; omega) hk p d,
    ablk_apply m c ⟨n, h⟩ k hk r d]

/-! ### One point -/

/-- A first run: the zeroed accumulator plus run 0. -/
theorem first_W (c : Dev nD) (n : ℕ) (h : n < cfg0.N) (h0 : n % 8 = 0) (p : Fin 2048) (q : Fin 1024) :
    k0_pay4 (F := Ideal) (xblk m c ⟨n, h⟩) (wblk m c ⟨n, h⟩) (k0_pay1 (F := Ideal)) (ix2 p q)
      = upTo (runW m c (tokBlock n) (outBlock n) p q) (n % 8) := by
  rw [base_step, zero_base, zero_add, h0, upTo_zero]
  exact own_W m c n h 0 (by show 0 = n % 8; omega) p q
theorem first_A (c : Dev nD) (n : ℕ) (h : n < cfg0.N) (h0 : n % 8 = 0) (p : Fin 2048) (r : Fin 8) :
    k0_pay5 (F := Ideal) (xblk m c ⟨n, h⟩) (ablk m c ⟨n, h⟩) (k0_pay2 (F := Ideal)) (ix2 p r)
      = upTo (runA m c (tokBlock n) p r) (n % 8) := by
  rw [low_step, zero_low, zero_add, h0, upTo_zero]
  exact own_A m c n h 0 (by show 0 = n % 8; omega) p r

/-- A later run: what the point before left, plus this run. -/
theorem next_W (c : Dev nD) (n : ℕ) (h : n + 1 < cfg0.N) (h0 : ¬(n + 1) % 8 = 0) (prev : Vec Ideal S2048x1024 .f32)
    (hprev : ∀ (p : Fin 2048) (q : Fin 1024), prev (ix2 p q) = upTo (runW m c (tokBlock n) (outBlock n) p q) (n % 8))
    (p : Fin 2048) (q : Fin 1024) :
    k0_pay4 (F := Ideal) (xblk m c ⟨n + 1, h⟩) (wblk m c ⟨n + 1, h⟩) prev (ix2 p q)
      = upTo (runW m c (tokBlock (n + 1)) (outBlock (n + 1)) p q) ((n + 1) % 8) := by
  have eI : tokBlock (n + 1) = tokBlock n := Fin.ext (by show (n + 1) / 32 % 8 = n / 32 % 8; omega)
  have eJ : outBlock (n + 1) = outBlock n := Fin.ext (by show (n + 1) / 8 % 4 = n / 8 % 4; omega)
  have eK : (n + 1) % 8 = n % 8 + 1 := by omega
  rw [base_step, hprev, own_W m c (n + 1) h ⟨n % 8 + 1, by omega⟩ eK.symm p q, eI, eJ, eK, upTo_succ _ (n % 8) (by omega)]
theorem next_A (c : Dev nD) (n : ℕ) (h : n + 1 < cfg0.N) (h0 : ¬(n + 1) % 8 = 0) (prev : Vec Ideal S2048x8 .f32)
    (hprev : ∀ (p : Fin 2048) (r : Fin 8), prev (ix2 p r) = upTo (runA m c (tokBlock n) p r) (n % 8))
    (p : Fin 2048) (r : Fin 8) :
    k0_pay5 (F := Ideal) (xblk m c ⟨n + 1, h⟩) (ablk m c ⟨n + 1, h⟩) prev (ix2 p r)
      = upTo (runA m c (tokBlock (n + 1)) p r) ((n + 1) % 8) := by
  have eI : tokBlock (n + 1) = tokBlock n := Fin.ext (by show (n + 1) / 32 % 8 = n / 32 % 8; omega)
  have eK : (n + 1) % 8 = n % 8 + 1 := by omega
  rw [low_step, hprev, own_A m c (n + 1) h ⟨n % 8 + 1, by omega⟩ eK.symm p r, eI, eK, upTo_succ _ (n % 8) (by omega)]

/-! ### Every point -/

/-- After point `n` the base accumulator holds the runs `0 … n mod 8` of the base product and the low-rank accumulator
    the same runs of the down-projection, for the point's pair of blocks. -/
theorem acc_after (c : Dev nD) : ∀ (n : ℕ) (h : n < cfg0.N),
    (∀ (p : Fin 2048) (q : Fin 1024),
        (outsAt0 m c n h).2.1 (ix2 p q) = upTo (runW m c (tokBlock n) (outBlock n) p q) (n % 8))
    ∧ (∀ (p : Fin 2048) (r : Fin 8),
        (outsAt0 m c n h).2.2 (ix2 p r) = upTo (runA m c (tokBlock n) p r) (n % 8)) := by
  intro n
  induction n with
  | zero =>
    intro h
    rw [outsAt0_A m c ⟨0, h⟩ rfl (by show ¬(0 % 8 = 7); decide)]
    dsimp only
    refine ⟨fun p q => ?_, fun p r => ?_⟩
    · refine (congrFun (first_base (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ _ (xblk m c ⟨0, h⟩) (wblk m c ⟨0, h⟩) (ablk m c ⟨0, h⟩) (bblk m c ⟨0, h⟩)) (ix2 p q)).trans ?_
      exact first_W m c 0 h rfl p q
    · refine (congrFun (first_low (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ _ (xblk m c ⟨0, h⟩) (wblk m c ⟨0, h⟩) (ablk m c ⟨0, h⟩) (bblk m c ⟨0, h⟩)) (ix2 p r)).trans ?_
      exact first_A m c 0 h rfl p r
  | succ n ih =>
    intro h
    have ih' := ih (Nat.lt_of_succ_lt h)
    by_cases h0 : (n + 1) % 8 = 0
    · have h1 : ¬(n + 1) % 8 = 7 := by omega
      rw [outsAt0_A m c ⟨n + 1, h⟩ h0 h1]
      dsimp only
      refine ⟨fun p q => ?_, fun p r => ?_⟩
      · refine (congrFun (first_base (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ (xblk m c ⟨n + 1, h⟩) (wblk m c ⟨n + 1, h⟩) (ablk m c ⟨n + 1, h⟩) (bblk m c ⟨n + 1, h⟩)) (ix2 p q)).trans ?_
        exact first_W m c (n + 1) h h0 p q
      · refine (congrFun (first_low (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ (xblk m c ⟨n + 1, h⟩) (wblk m c ⟨n + 1, h⟩) (ablk m c ⟨n + 1, h⟩) (bblk m c ⟨n + 1, h⟩)) (ix2 p r)).trans ?_
        exact first_A m c (n + 1) h h0 p r
    · by_cases h1 : (n + 1) % 8 = 7
      · rw [outsAt0_C m c ⟨n + 1, h⟩ h0 h1]
        dsimp only
        refine ⟨fun p q => ?_, fun p r => ?_⟩
        · refine (congrFun (last_base (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ (xblk m c ⟨n + 1, h⟩) (wblk m c ⟨n + 1, h⟩) (ablk m c ⟨n + 1, h⟩) (bblk m c ⟨n + 1, h⟩) (outsAt0 m c n (Nat.lt_of_succ_lt h)).2.1 (outsAt0 m c n (Nat.lt_of_succ_lt h)).2.2) (ix2 p q)).trans ?_
          exact next_W m c n h h0 _ ih'.1 p q
        · refine (congrFun (last_low (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ (xblk m c ⟨n + 1, h⟩) (wblk m c ⟨n + 1, h⟩) (ablk m c ⟨n + 1, h⟩) (bblk m c ⟨n + 1, h⟩) (outsAt0 m c n (Nat.lt_of_succ_lt h)).2.1 (outsAt0 m c n (Nat.lt_of_succ_lt h)).2.2) (ix2 p r)).trans ?_
          exact next_A m c n h h0 _ ih'.2 p r
      · rw [outsAt0_B m c ⟨n + 1, h⟩ h0 h1]
        dsimp only
        refine ⟨fun p q => ?_, fun p r => ?_⟩
        · refine (congrFun (middle_base (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ (xblk m c ⟨n + 1, h⟩) (wblk m c ⟨n + 1, h⟩) (ablk m c ⟨n + 1, h⟩) (bblk m c ⟨n + 1, h⟩) (outsAt0 m c n (Nat.lt_of_succ_lt h)).2.1 (outsAt0 m c n (Nat.lt_of_succ_lt h)).2.2) (ix2 p q)).trans ?_
          exact next_W m c n h h0 _ ih'.1 p q
        · refine (congrFun (middle_low (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ (xblk m c ⟨n + 1, h⟩) (wblk m c ⟨n + 1, h⟩) (ablk m c ⟨n + 1, h⟩) (bblk m c ⟨n + 1, h⟩) (outsAt0 m c n (Nat.lt_of_succ_lt h)).2.1 (outsAt0 m c n (Nat.lt_of_succ_lt h)).2.2) (ix2 p r)).trans ?_
          exact next_A m c n h h0 _ ih'.2 p r

end Cert.KernelIdeal.Running

end
-- ==== Proof.Whole.lean ====
/-
  The kernel's result: the layer.

  At the last run of a (token block, output block) pair the body writes the output block
      base + (low · bbᵀ) · two
  of the finished accumulators: by the running sums its entry (p, q) is the sum over all 8 runs of the base product,
  plus the scaled product of the 8 finished down-projections with the up-projection's rows — the layer at token row
  2048·i + p and output feature 1024·j + q, the features summed run by run (`sum_runs`). Only those points write their
  block back, their 8 × 4 blocks tile the (token, output) matrix, so the matrix the region leaves is the layer at every
  entry; the host operation after the region lays it back out as (batch, position, output), and flattening the tokens
  first changes nothing (`matOut_flat`).
-/
import proofs.«106739_j86011015070181_1_alg».proof.Proof.Running

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.LoraLinear Cert.KernelIdeal.Blocks Cert.KernelIdeal.Cases Cert.KernelIdeal.Point
open Cert.KernelIdeal.Running

variable (m : (ℓ : Loc nD τ sig) → Buf (Elt Ideal) ℓ) (ρ : Dev nD → PrngReg)

/-- The (token, output) matrix the region leaves: the layer on the arrays the region finds. -/
def outMat (c : Dev nD) : Vec Ideal S16384x4096 .f32 := fun I =>
  matOut (tokens m c) (weight m c) (down m c) (up m c) (Ideal.ofBits .f32 0x40000000#32) (I 0) (I 1)

/-! ### The output block of a last run -/

/-- At a last run the output block is the printed combination of the point's updated accumulators. -/
theorem out_of_acc (c : Dev nD) (t : Fin cfg0.N) (h7 : t.val % 8 = 7) :
    (outsAt0 m c t.val t.isLt).1
      = k0_pay6 (F := Ideal) (bblk m c t) (outsAt0 m c t.val t.isLt).2.2 (outsAt0 m c t.val t.isLt).2.1 := by
  have h0 : ¬t.val % 8 = 0 := by omega
  rw [outsAt0_C m c t h0 h7]
  dsimp only
  rw [last_low (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (xblk m c t) (wblk m c t) (ablk m c t) (bblk m c t) _ _,
    last_base (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (xblk m c t) (wblk m c t) (ablk m c t) (bblk m c t) _ _]
  exact last_out (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (xblk m c t) (wblk m c t) (ablk m c t) (bblk m c t) _ _

/-- Its entry (p, q) is the layer at the block's token row and output feature. -/
theorem out_block (c : Dev nD) (t : Fin cfg0.N) (h7 : t.val % 8 = 7) (p : Fin 2048) (q : Fin 1024) :
    (outsAt0 m c t.val t.isLt).1 (ix2 p q)
      = matOut (tokens m c) (weight m c) (down m c) (up m c) (Ideal.ofBits .f32 0x40000000#32)
          (tokRow (tokBlock t.val) p) (outFeat (outBlock t.val) q) := by
  obtain ⟨hW, hA⟩ := acc_after m c t.val t.isLt
  rw [out_of_acc m c t h7, out_step, hW p q]
  simp only [hA, bblk_apply m c t (outBlock t.val) rfl, h7, upTo_last]
  unfold matOut runW runA
  simp only [sum_runs]

/-! ### From the blocks to the matrix -/

/-- What a last run writes back is its block of the layer. -/
theorem flushed_eq (c : Dev nD) (t : Fin cfg0.N) (hf : (cfg0.win 4).flush t = true) :
    (dats m 0 c).flushed 4 t = ((cfg0.win 4).blk t).view.read (Elt Ideal) (outMat m c) := by
  have h7 : t.val % 8 = 7 := (flush0_4 t).mp hf
  have hN : t.val < 256 := lt_of_lt_of_eq t.isLt (show cfg0.N = 256 from N_0)
  obtain ⟨-, -, -, -, -, -, -, -, e0, e1⟩ := idx_facts t
  show (cfg0.win 4).cut (grid0.coords t) ((dats m 0 c).after 4 t) = _
  rw [after0_4]
  funext y
  obtain ⟨p, q, rfl⟩ : ∃ (p : Fin 2048) (q : Fin 1024), y = ix2 p q := ⟨y 0, y 1, eq_ix2 y⟩
  have hemb : ((cfg0.win 4).blk t).view.emb (ix2 p q) = ix2 (tokRow (tokBlock t.val) p) (outFeat (outBlock t.val) q) := by
    funext a; apply Fin.ext
    match a with
    | ⟨0, _⟩ => show win0_4.index t (0 : Fin 2) * 2048 + 1 * p.val = 2048 * (t.val / 32 % 8) + p.val; omega
    | ⟨1, _⟩ => show win0_4.index t (1 : Fin 2) * 1024 + 1 * q.val = 1024 * (t.val / 8 % 4) + q.val; omega
  show (outsAt0 m c t.val t.isLt).1 (ix2 p q) = outMat m c (((cfg0.win 4).blk t).view.emb (ix2 p q))
  rw [hemb]
  exact out_block m c t h7 p q

/-- An entry of the matrix is in point `t`'s block iff each coordinate is in the block's range on its axis. -/
theorem mem_blk (t : Fin cfg0.N) (I : S16384x4096.Idx) :
    I ∈ ((cfg0.win 4).blk t).view.set ↔ ∀ a : Fin 2, win0_4.index t a * S2048x1024.size a ≤ (I a).val ∧ (I a).val < win0_4.index t a * S2048x1024.size a + S2048x1024.size a := by
  show I ∈ ((View.whole main_v1).slice (win0_4.rect t)).set ↔ _
  rw [View.set_slice_whole, Rect.mem_set_unit]
  exact Iff.rfl

/-- Every entry is in the block of the last run of its (token block, output block) pair. -/
theorem cover (I : S16384x4096.Idx) :
    ∃ t : Fin cfg0.N, (cfg0.win 4).flush t = true ∧ I ∈ ((cfg0.win 4).blk t).view.set := by
  have hI0 : (I 0).val < 16384 := (I 0).isLt
  have hI1 : (I 1).val < 4096 := (I 1).isLt
  have hN : cfg0.N = 256 := N_0
  let t : Fin cfg0.N := ⟨32 * ((I 0).val / 2048) + 8 * ((I 1).val / 1024) + 7, by rw [hN]; omega⟩
  have ht : t.val = 32 * ((I 0).val / 2048) + 8 * ((I 1).val / 1024) + 7 := rfl
  obtain ⟨-, -, -, -, -, -, -, -, e0, e1⟩ := idx_facts t
  refine ⟨t, (flush0_4 t).mpr (by omega), ?_⟩
  rw [mem_blk]
  intro a
  match a with
  | ⟨0, _⟩ => show win0_4.index t (0 : Fin 2) * 2048 ≤ (I 0).val ∧ (I 0).val < win0_4.index t (0 : Fin 2) * 2048 + 2048; omega
  | ⟨1, _⟩ => show win0_4.index t (1 : Fin 2) * 1024 ≤ (I 1).val ∧ (I 1).val < win0_4.index t (1 : Fin 2) * 1024 + 1024; omega

/-- The matrix the region leaves is the layer at every entry. -/
theorem final (c : Dev nD) : (dats m 0 c).arrAt 4 cfg0.N = outMat m c :=
  (dats m 0 c).arrAt_eq_of_cover 4 (outMat m c) (flushed_eq m c) cover

/-! ### After the region -/

/-- The program's result: the matrix laid back out as (batch, position, output) by the host operation after the region. -/
theorem result_eq (c : Dev nD) :
    Pipeline.afterTail₀ cfgs (dats m) 0 (V0 m) [hostOps1] c main_v2
      = shapeCast S4x4096x4096 (outMat m c) shapeCasts_S16384x4096_S4x4096x4096 := by
  unfold Pipeline.afterTail₀
  show StableHlo.after hostOps1 _ (Proc.devRef .tc main_v2) = _
  after_results
  exact congrArg (fun y => shapeCast S4x4096x4096 y shapeCasts_S16384x4096_S4x4096x4096)
    ((Pipeline.withArrays_arr spec0 launch0.win.arr_inj c _ _ 4).trans (final m c))

/-- The layer of the launch arguments, as an array (batch, position, output). -/
def layerOf (c : Dev nD) : Buf (Elt Ideal) ((c.tc : Thread nD τ).loc main_v2) := fun i =>
  layerAt (m ((c.tc : Thread nD τ).loc main_arg0)) (m ((c.tc : Thread nD τ).loc main_arg1))
    (m ((c.tc : Thread nD τ).loc main_arg2)) (m ((c.tc : Thread nD τ).loc main_arg3)) (Ideal.ofBits .f32 0x40000000#32) (i 0) (i 1) (i 2)

/-- Laid back out, the matrix is the layer of the launch arguments: the token matrix the region found is the first
    argument flattened, and flattening the tokens first changes nothing. -/
theorem laid_out (c : Dev nD) :
    shapeCast S4x4096x4096 (outMat m c) shapeCasts_S16384x4096_S4x4096x4096 = layerOf m c := by
  funext i
  obtain ⟨b, s, o, rfl⟩ : ∃ (b : Fin 4) (s : Fin 4096) (o : Fin 4096), i = ix3 b s o := ⟨i 0, i 1, i 2, eq_ix3 i⟩
  rw [unflat_tokens]
  show matOut (tokens m c) (weight m c) (down m c) (up m c) (Ideal.ofBits .f32 0x40000000#32) (tok b s) o = _
  rw [tokens_eq, weight_eq, down_eq, up_eq, matOut_flat]
  rfl

/-- The result array ends holding the layer of the launch arguments, and the four argument arrays end as launched. -/
theorem run : θ_run defs (onTc (τ := τ) (main (F := Ideal))) ⟨m, fun _ => 0, ρ⟩ fun r => ∀ c : Dev nD,
      r.2.mem ((c.tc : Thread nD τ).loc main_v2) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans ((result_eq m c).trans (laid_out m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Whole

end
-- ==== Proof.Reference.lean ====
/-
  The reference computes the layer.

  Its seven host operations are three contractions over a whole axis, a constant, its broadcast, a product and a sum:
  entry (b, s, o) of its result is
      Σ_D x (b, s, D) · W (o, D)  +  (Σ_r (Σ_D x (b, s, D) · A (r, D)) · B (o, r)) · two,
  which is `layerAt` by reading each stage at an index (the generated read-at-an-index lemmas, outermost first) and
  naming the operand indices by their coordinates.
-/
import proofs.«106739_j86011015070181_1_alg».proof.Proof.Gen.ReferenceIdeal.Read
import proofs.«106739_j86011015070181_1_alg».proof.Proof.Layer

noncomputable section

namespace Cert.ReferenceIdeal.Whole

open Cert.ReferenceIdeal Cert.ReferenceIdeal.Read Idealize.ShloMosaic Idealize.ShloMosaic.ValueIdx Cert.LoraLinear

/-- Entry (b, s, o) of the reference's result is the layer there. -/
theorem result_at (x0 : (⟨S4x4096x4096, .f32⟩ : BufTy).Contents (Elt Ideal)) (x1 : (⟨S4096x4096, .f32⟩ : BufTy).Contents (Elt Ideal))
    (x2 : (⟨S8x4096, .f32⟩ : BufTy).Contents (Elt Ideal)) (x3 : (⟨S4096x8, .f32⟩ : BufTy).Contents (Elt Ideal))
    (b : Fin 4) (s : Fin 4096) (o : Fin 4096) :
    val_main_v5 (F := Ideal) x0 x1 x2 x3 (ix3 b s o)
      = layerAt x0 x1 x2 x3 (Ideal.ofBits .f32 0x40000000#32) b s o := by
  -- the operand indices, by their coordinates
  have eW_l : ∀ D : Fin 4096, lidx_main_v0 (ix3 b s o) D = ix3 b s D := fun D => funext fun a => by
    match a with
    | ⟨0, _⟩ => rfl
    | ⟨1, _⟩ => rfl
    | ⟨2, _⟩ => rfl
  have eW_r : ∀ D : Fin 4096, ridx_main_v0 (ix3 b s o) D = ix2 o D := fun D => funext fun a => by
    match a with
    | ⟨0, _⟩ => rfl
    | ⟨1, _⟩ => rfl
  have eB_l : ∀ r : Fin 8, lidx_main_v2 (ix3 b s o) r = ix3 b s r := fun r => funext fun a => by
    match a with
    | ⟨0, _⟩ => rfl
    | ⟨1, _⟩ => rfl
    | ⟨2, _⟩ => rfl
  have eB_r : ∀ r : Fin 8, ridx_main_v2 (ix3 b s o) r = ix2 o r := fun r => funext fun a => by
    match a with
    | ⟨0, _⟩ => rfl
    | ⟨1, _⟩ => rfl
  have eA_l : ∀ (r : Fin 8) (D : Fin 4096), lidx_main_v1 (ix3 b s r) D = ix3 b s D := fun r D => funext fun a => by
    match a with
    | ⟨0, _⟩ => rfl
    | ⟨1, _⟩ => rfl
    | ⟨2, _⟩ => rfl
  have eA_r : ∀ (r : Fin 8) (D : Fin 4096), ridx_main_v1 (ix3 b s r) D = ix2 r D := fun r D => funext fun a => by
    match a with
    | ⟨0, _⟩ => rfl
    | ⟨1, _⟩ => rfl
  rw [val_main_v5_apply, val_main_v4_apply, val_main_v0_apply, val_main_v2_apply, val_main_v3_apply, val_main_cst_apply]
  simp only [eW_l, eW_r, eB_l, eB_r, val_main_v1_apply, eA_l, eA_r]
  rfl

/-- The reference's result array is the layer, entry by entry. -/
theorem result_eq (x0 : (⟨S4x4096x4096, .f32⟩ : BufTy).Contents (Elt Ideal)) (x1 : (⟨S4096x4096, .f32⟩ : BufTy).Contents (Elt Ideal))
    (x2 : (⟨S8x4096, .f32⟩ : BufTy).Contents (Elt Ideal)) (x3 : (⟨S4096x8, .f32⟩ : BufTy).Contents (Elt Ideal)) :
    val_main_v5 (F := Ideal) x0 x1 x2 x3
      = fun i => layerAt x0 x1 x2 x3 (Ideal.ofBits .f32 0x40000000#32) (i 0) (i 1) (i 2) := by
  funext i
  obtain ⟨b, s, o, rfl⟩ : ∃ (b : Fin 4) (s : Fin 4096) (o : Fin 4096), i = ix3 b s o := ⟨i 0, i 1, i 2, eq_ix3 i⟩
  exact result_at x0 x1 x2 x3 b s o

end Cert.ReferenceIdeal.Whole

end
-- ==== Proof.lean ====
/-
  A linear layer with a rank-8 low-rank update, computed by a blocked kernel and by three whole contractions: the two
  are one function of the arguments over the extended reals.

  Both compute, at batch b, position s and output feature o,
      Σ_D x (b, s, D) · W (o, D)  +  (Σ_r (Σ_D x (b, s, D) · A (r, D)) · B (o, r)) · two
  with the same literal two. The reference contracts the 4096 features at once. The kernel flattens the tokens, cuts
  the features into 8 runs of 512 and, for each block of 2048 tokens and 1024 outputs, folds the runs' partial
  products onto zeroed accumulators (one for x · Wᵀ, one for x · Aᵀ), combining them with the up-projection at the last
  run; its narrowing of the operands to a shorter float format is the identity on the extended reals. Addition there
  is commutative and associative with neutral element 0, so the fold over the runs is the sum over all features
  (Layer.lean); no distributivity or cancellation is needed, and the finiteness of the inputs is not used.

    Layer.lean      the layer as a function of arrays; a sum over the features run by run; the two token layouts
    Point.lean      the three stores of one grid point, entry by entry
    Cases.lean      what the body leaves at a first, a middle and a last run
    Blocks.lean     the blocks a point is handed, as reads of the arrays
    Running.lean    the accumulators after each point are the partial sums of the runs (induction on the point)
    Whole.lean      the output blocks tile the layer; the kernel's result
    Reference.lean  the reference's result

  The statement's ledger of idealization rewrites is empty: its `preserves` conjunct is `True`. The three frame
  conjuncts are the generated frames (the reference's is its generated run with the result dropped).
-/
import proofs.«106739_j86011015070181_1_alg».proof.Defs
import proofs.«106739_j86011015070181_1_alg».proof.Proof.Gen.Kernel
import proofs.«106739_j86011015070181_1_alg».proof.Proof.Gen.Kernel.Frame
import proofs.«106739_j86011015070181_1_alg».proof.Proof.Gen.KernelIdeal
import proofs.«106739_j86011015070181_1_alg».proof.Proof.Gen.KernelIdeal.Frame
import proofs.«106739_j86011015070181_1_alg».proof.Proof.Gen.ReferenceIdeal
import proofs.«106739_j86011015070181_1_alg».proof.Proof.Gen.Pre_finite_inputs
import proofs.«106739_j86011015070181_1_alg».proof.Proof.Gen.ReferenceIdeal.Run
import proofs.«106739_j86011015070181_1_alg».proof.Proof.Gen.ReferenceIdeal.Read
import proofs.«106739_j86011015070181_1_alg».proof.Proof.Whole
import proofs.«106739_j86011015070181_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result is the layer of its arguments (Whole.lean), the reference's the layer of its own
    (Reference.lean), and the arguments agree. -/
theorem algebraic : Cert.algebraic_KernelIdeal_ReferenceIdeal := by
  intro m ρ m' ρ' _ hagree
  refine ⟨fun c => Cert.KernelIdeal.Whole.layerOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Whole.result_eq, (hagree c).1, (hagree c).2.1,
    (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
